-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_arg8 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1000000 32) (main_arg2 : IVec S2x1000000 32) (main_arg3 : FVec F S128x128 .f32) (main_arg4 : FVec F S128 .f32) (main_arg5 : FVec F S128x128 .f32) (main_arg6 : FVec F S128x64 .f32) (main_arg7 : FVec F S64 .f32) (main_arg8 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S1x64 : Shape := ⟨2, ![1, 64]⟩
abbrev S100000x64 : Shape := ⟨2, ![100000, 64]⟩
abbrev S4000x64 : Shape := ⟨2, ![4000, 64]⟩
abbrev S4000 : Shape := ⟨1, ![4000]⟩
abbrev S4000x1 : Shape := ⟨2, ![4000, 1]⟩

abbrev nBuf : Space → Nat
  | .hbm => 71
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S2x1000000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .f32⟩
  | .hbm, ⟨22, _⟩ => ⟨S_, .f32⟩
  | .hbm, ⟨23, _⟩ => ⟨S100000x128, .f32⟩
  | .hbm, ⟨24, _⟩ => ⟨S1000000x1, .i32⟩
  | .hbm, ⟨25, _⟩ => ⟨S100000x128, .f32⟩
  | .hbm, ⟨26, _⟩ => ⟨S_, .f32⟩
  | .hbm, ⟨27, _⟩ => ⟨S1000000, .f32⟩
  | .hbm, ⟨28, _⟩ => ⟨S_, .f32⟩
  | .hbm, ⟨29, _⟩ => ⟨S100000, .f32⟩
  | .hbm, ⟨30, _⟩ => ⟨S1000000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S1x1000000, .i32⟩
  | .hbm, ⟨41, _⟩ => ⟨S1000000, .i32⟩
  | .hbm, ⟨42, _⟩ => ⟨S1x1000000, .i32⟩
  | .hbm, ⟨43, _⟩ => ⟨S1000000, .i32⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S1000000, .i32⟩
  | .hbm, ⟨51, _⟩ => ⟨S1000000x1, .i32⟩
  | .hbm, ⟨52, _⟩ => ⟨S1000000x128, .f32⟩
  | .hbm, ⟨53, _⟩ => ⟨S_, .f32⟩
  | .hbm, ⟨54, _⟩ => ⟨S100000x128, .f32⟩
  | .hbm, ⟨55, _⟩ => ⟨S1000000x1, .i32⟩
  | .hbm, ⟨56, _⟩ => ⟨S100000x128, .f32⟩
  | .hbm, ⟨57, _⟩ => ⟨S_, .f32⟩
  | .hbm, ⟨58, _⟩ => ⟨S1000000, .f32⟩
  | .hbm, ⟨59, _⟩ => ⟨S_, .f32⟩
  | .hbm, ⟨60, _⟩ => ⟨S100000, .f32⟩
  | .hbm, ⟨61, _⟩ => ⟨S1000000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S1x64, .f32⟩
  | .hbm, ⟨70, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S4000x64, .f32⟩
  | .local _ .vmem, ⟨17, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S2x1000000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x128, .f32⟩
  | .hbm, ⟨22, _⟩ => ⟨S_, .f32⟩
  | .hbm, ⟨23, _⟩ => ⟨S100000x128, .f32⟩
  | .hbm, ⟨24, _⟩ => ⟨S1000000x1, .i32⟩
  | .hbm, ⟨25, _⟩ => ⟨S100000x128, .f32⟩
  | .hbm, ⟨26, _⟩ => ⟨S_, .f32⟩
  | .hbm, ⟨27, _⟩ => ⟨S1000000, .f32⟩
  | .hbm, ⟨28, _⟩ => ⟨S_, .f32⟩
  | .hbm, ⟨29, _⟩ => ⟨S100000, .f32⟩
  | .hbm, ⟨30, _⟩ => ⟨S1000000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S1x1000000, .i32⟩
  | .hbm, ⟨48, _⟩ => ⟨S1000000, .i32⟩
  | .hbm, ⟨49, _⟩ => ⟨S1x1000000, .i32⟩
  | .hbm, ⟨50, _⟩ => ⟨S1000000, .i32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x128, .f32⟩
  | .hbm, ⟨60, _⟩ => ⟨S_, .f32⟩
  | .hbm, ⟨61, _⟩ => ⟨S100000x128, .f32⟩
  | .hbm, ⟨62, _⟩ => ⟨S1000000x1, .i32⟩
  | .hbm, ⟨63, _⟩ => ⟨S100000x128, .f32⟩
  | .hbm, ⟨64, _⟩ => ⟨S_, .f32⟩
  | .hbm, ⟨65, _⟩ => ⟨S1000000, .f32⟩
  | .hbm, ⟨66, _⟩ => ⟨S_, .f32⟩
  | .hbm, ⟨67, _⟩ => ⟨S100000, .f32⟩
  | .hbm, ⟨68, _⟩ => ⟨S1000000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000, .f32⟩
  | .hbm, ⟨93, _⟩ => ⟨S100000x1, .f32⟩
  | .hbm, ⟨94, _⟩ => ⟨S100000x1, .f32⟩
  | .hbm, ⟨95, _⟩ => ⟨S100000x64, .f32⟩
  | .hbm, ⟨96, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v59 : Ref sig .tc := ⟨.hbm, 96, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Agg.lean ====
/-
  Mean aggregation over in-edges, as one function of a feature table and an edge list.

  Both layers aggregate the same way: take the rows of the feature table at the edges' sources, add them up at the
  edges' targets, and divide each target's sum by the number of its in-edges (at least one). Both programs spell this
  with the same host operations; the kernel program does it twice (once per layer), and so does the reference. Here it
  is named once, so that no proof ever has to open it: all that is used of it is that it is ONE function.
-/
import proofs.«122850_j60086592471214_1_alg».proof.Proof.Gen.KernelIdeal
import Idealize.ShloMosaic.PureOps.Ideal

noncomputable section

namespace Cert.KernelIdeal.Agg

open Cert.KernelIdeal Cert.KernelIdeal.Gen Idealize.ShloMosaic

variable {F : FTy → Type} [FloatOps F]

/-- The sources of the edges: row 0 of the edge list. -/
def srcIdx (ei : (⟨S2x1000000, .i32⟩ : BufTy).Contents (Elt F)) : (⟨S1000000, .i32⟩ : BufTy).Contents (Elt F) :=
  shapeCast _ (extractStridedSlice S1x1000000 ![0, 0] ei slices_S2x1000000_S1x1000000_0_0) shapeCasts_S1x1000000_S1000000

/-- The targets of the edges: row 1 of the edge list. -/
def dstIdx (ei : (⟨S2x1000000, .i32⟩ : BufTy).Contents (Elt F)) : (⟨S1000000, .i32⟩ : BufTy).Contents (Elt F) :=
  shapeCast _ (extractStridedSlice S1x1000000 ![1, 0] ei slices_S2x1000000_S1x1000000_1_0) shapeCasts_S1x1000000_S1000000

/-- Mean aggregation over in-edges: the rows of `x` at the edges' sources (a negative source counted from the end)
    are added up at the edges' targets, and each row of the sums is divided by max (number of in-edges, 1). -/
def agg (x : (⟨S100000x128, .f32⟩ : BufTy).Contents (Elt F)) (ei : (⟨S2x1000000, .i32⟩ : BufTy).Contents (Elt F)) :
    (⟨S100000x128, .f32⟩ : BufTy).Contents (Elt F) :=
  Host.divf
    (Host.scatterAdd scatter_S100000x128_S1000000x1_S1000000x128_1_0_0_1
      (broadcastInDim S100000x128 ![] bcast_S_S100000x128 (constant S_ .f32 0x00000000#32))
      (broadcastInDim S1000000x1 ![0] bcast_S1000000_S1000000x1_0 (dstIdx ei))
      (Host.gather gather_S100000x128_S1000000x1_S1000000x128_1_0_n_n_0_1_1128 x
        (broadcastInDim S1000000x1 ![0] bcast_S1000000_S1000000x1_0
          (select (cmpi .slt (srcIdx ei) (broadcastInDim S1000000 ![] bcast_S_S1000000 (constantI S_ 32 0#32)))
            (addi (srcIdx ei) (broadcastInDim S1000000 ![] bcast_S_S1000000 (constantI S_ 32 100000#32)))
            (srcIdx ei)))))
    (broadcastInDim S100000x128 ![0, 1] bcast_S100000x1_S100000x128_0_1
      (broadcastInDim S100000x1 ![0] bcast_S100000_S100000x1_0
        (maximumf
          (Host.scatterAdd scatter_S100000_S1000000x1_S1000000_n_0_0_1
            (broadcastInDim S100000 ![] bcast_S_S100000 (constant S_ .f32 0x00000000#32))
            (broadcastInDim S1000000x1 ![0] bcast_S1000000_S1000000x1_0 (dstIdx ei))
            (broadcastInDim S1000000 ![] bcast_S_S1000000 (constant S_ .f32 0x3F800000#32)))
          (broadcastInDim S100000 ![] bcast_S_S100000 (constant S_ .f32 0x3F800000#32)))))

end Cert.KernelIdeal.Agg

end
-- ==== Proof.KHost.lean ====
/-
  What the host operations around the two pallas_calls leave in the buffers the calls read.

  Before the first call the host aggregates the node features over the first edge list and lays the first bias vector
  out as a one-row table; between the calls it aggregates the first call's output over the second edge list and lays
  the second bias out the same way. Every other buffer a call reads (the node features, the weights, the first call's
  output) is written by none of these operations and keeps its contents. Stated for ANY contents `W` the stretch is
  entered with.
-/
import proofs.«122850_j60086592471214_1_alg».proof.Proof.Gen.KernelIdeal.Launch
import proofs.«122850_j60086592471214_1_alg».proof.Proof.Agg
import Idealize.ShloMosaic.Lib.StableHlo.Run

noncomputable section

namespace Cert.KernelIdeal.HostReads

open Cert.KernelIdeal Cert.KernelIdeal.Gen Cert.KernelIdeal.Agg
open Idealize.ShloMosaic Idealize.ShloMosaic.TcCoe Idealize.SL.Sem Idealize.ShloMosaic.StableHlo

variable {F : FTy → Type} [FloatOps F]
variable (W : Valuation τ sig (Elt F))

/-! ## The stretch before the first call -/

set_option maxHeartbeats 4000000 in
/-- The first call's aggregated features: the mean aggregation of the node features over the first edge list. -/
theorem host0_v22 : StableHlo.after hostOps0 W (Proc.devRef .tc main_v22)
    = agg (W (Proc.devRef .tc main_arg0)) (W (Proc.devRef .tc main_arg1)) := by
  after_results_simp <;> rfl

set_option maxHeartbeats 4000000 in
/-- The first bias vector as a one-row table. -/
theorem host0_v23 : StableHlo.after hostOps0 W (Proc.devRef .tc main_v23)
    = shapeCast S1x128 (W (Proc.devRef .tc main_arg4)) shapeCasts_S128_S1x128 := by
  after_results_simp <;> rfl

set_option maxHeartbeats 4000000 in
theorem host0_arg0 : StableHlo.after hostOps0 W (Proc.devRef .tc main_arg0) = W (Proc.devRef .tc main_arg0) := by
  after_results_simp <;> rfl

set_option maxHeartbeats 4000000 in
theorem host0_arg2 : StableHlo.after hostOps0 W (Proc.devRef .tc main_arg2) = W (Proc.devRef .tc main_arg2) := by
  after_results_simp <;> rfl

set_option maxHeartbeats 4000000 in
theorem host0_arg3 : StableHlo.after hostOps0 W (Proc.devRef .tc main_arg3) = W (Proc.devRef .tc main_arg3) := by
  after_results_simp <;> rfl

set_option maxHeartbeats 4000000 in
theorem host0_arg5 : StableHlo.after hostOps0 W (Proc.devRef .tc main_arg5) = W (Proc.devRef .tc main_arg5) := by
  after_results_simp <;> rfl

set_option maxHeartbeats 4000000 in
theorem host0_arg6 : StableHlo.after hostOps0 W (Proc.devRef .tc main_arg6) = W (Proc.devRef .tc main_arg6) := by
  after_results_simp <;> rfl

set_option maxHeartbeats 4000000 in
theorem host0_arg7 : StableHlo.after hostOps0 W (Proc.devRef .tc main_arg7) = W (Proc.devRef .tc main_arg7) := by
  after_results_simp <;> rfl

set_option maxHeartbeats 4000000 in
theorem host0_arg8 : StableHlo.after hostOps0 W (Proc.devRef .tc main_arg8) = W (Proc.devRef .tc main_arg8) := by
  after_results_simp <;> rfl

/-! ## The stretch between the calls -/

set_option maxHeartbeats 4000000 in
/-- The second call's aggregated features: the mean aggregation of the first call's output over the second edge list. -/
theorem host1_v47 : StableHlo.after hostOps1 W (Proc.devRef .tc main_v47)
    = agg (W (Proc.devRef .tc main_v24)) (W (Proc.devRef .tc main_arg2)) := by
  after_results_simp <;> rfl

set_option maxHeartbeats 4000000 in
/-- The second bias vector as a one-row table. -/
theorem host1_v48 : StableHlo.after hostOps1 W (Proc.devRef .tc main_v48)
    = shapeCast S1x64 (W (Proc.devRef .tc main_arg7)) shapeCasts_S64_S1x64 := by
  after_results_simp <;> rfl

set_option maxHeartbeats 4000000 in
theorem host1_v24 : StableHlo.after hostOps1 W (Proc.devRef .tc main_v24) = W (Proc.devRef .tc main_v24) := by
  after_results_simp <;> rfl

set_option maxHeartbeats 4000000 in
theorem host1_arg6 : StableHlo.after hostOps1 W (Proc.devRef .tc main_arg6) = W (Proc.devRef .tc main_arg6) := by
  after_results_simp <;> rfl

set_option maxHeartbeats 4000000 in
theorem host1_arg8 : StableHlo.after hostOps1 W (Proc.devRef .tc main_arg8) = W (Proc.devRef .tc main_arg8) := by
  after_results_simp <;> rfl

end Cert.KernelIdeal.HostReads

end
-- ==== Proof.Spec.lean ====
/-
  The mathematics both programs compute, stated once over plain index functions.

  One graph layer takes a table `a` of aggregated neighbour features and the table `x` of the nodes' own features
  (both n rows of d numbers), two weight matrices `wl`, `wr` (d × e) and a bias vector `b` (e numbers), and forms
      z (i, j) = Σ_k a (i, k) · wl (k, j)  +  b j  +  Σ_k x (i, k) · wr (k, j).
  The first layer keeps max (z, 0); the second takes the logarithm of the softmax of every row of z, computed after
  subtracting the row's maximum M i = max_j z (i, j):
      (z (i, j) − M i) − log Σ_k exp (z (i, k) − M i).
  Everything is on the extended reals, where sums may be taken in any order. Each entry of a result depends on ONE
  row of `a` and of `x` only; that is what lets a program that works on blocks of rows meet one that works on whole
  tables (`lin_rows`, `logSoftmax_rows`).
-/
import Idealize.ShloMosaic.PureOps.Ideal
import Idealize.ShloMosaic.Lib.ValueIdx

noncomputable section

namespace Cert.Sage

open Idealize.ShloMosaic Idealize.ShloMosaic.ValueIdx
open scoped BigOperators

variable {n n' d e : Nat}

/-- Entry (i, j) of `a · wl + b + x · wr`. -/
def lin (a x : (⟨2, ![n, d]⟩ : Shape).Idx → EReal) (wl wr : (⟨2, ![d, e]⟩ : Shape).Idx → EReal)
    (b : (⟨1, ![e]⟩ : Shape).Idx → EReal) (i : Fin n) (j : Fin e) : EReal :=
  (∑ k : Fin d, a (ix2 i k) * wl (ix2 k j)) + b (ix1 j) + ∑ k : Fin d, x (ix2 i k) * wr (ix2 k j)

/-- The first layer's table: the positive part of `lin`. -/
def hidden (a x : (⟨2, ![n, d]⟩ : Shape).Idx → EReal) (wl wr : (⟨2, ![d, e]⟩ : Shape).Idx → EReal)
    (b : (⟨1, ![e]⟩ : Shape).Idx → EReal) : (⟨2, ![n, e]⟩ : Shape).Idx → EReal :=
  fun y => max (lin a x wl wr b (idxEquiv2 y).1 (idxEquiv2 y).2) 0

/-- The largest entry of row `i` of a table, folded from −∞. -/
def rowMax (z : Fin n → Fin e → EReal) (i : Fin n) : EReal :=
  (Finset.univ : Finset (Fin e)).fold max ⊥ (z i)

/-- Entry (i, j) of the row-wise log-softmax of a table, each row shifted by its maximum first. -/
def logSoftmax (z : Fin n → Fin e → EReal) (i : Fin n) (j : Fin e) : EReal :=
  (z i j - rowMax z i) - Ideal.log (∑ k : Fin e, Ideal.exp (z i k - rowMax z i))

/-- The second layer's table: the row-wise log-softmax of `lin`. -/
def logits (a x : (⟨2, ![n, d]⟩ : Shape).Idx → EReal) (wl wr : (⟨2, ![d, e]⟩ : Shape).Idx → EReal)
    (b : (⟨1, ![e]⟩ : Shape).Idx → EReal) : (⟨2, ![n, e]⟩ : Shape).Idx → EReal :=
  fun y => logSoftmax (lin a x wl wr b) (idxEquiv2 y).1 (idxEquiv2 y).2

theorem hidden_apply (a x : (⟨2, ![n, d]⟩ : Shape).Idx → EReal) (wl wr : (⟨2, ![d, e]⟩ : Shape).Idx → EReal)
    (b : (⟨1, ![e]⟩ : Shape).Idx → EReal) (i : Fin n) (j : Fin e) :
    hidden a x wl wr b (ix2 i j) = max (lin a x wl wr b i j) 0 := rfl

theorem logits_apply (a x : (⟨2, ![n, d]⟩ : Shape).Idx → EReal) (wl wr : (⟨2, ![d, e]⟩ : Shape).Idx → EReal)
    (b : (⟨1, ![e]⟩ : Shape).Idx → EReal) (i : Fin n) (j : Fin e) :
    logits a x wl wr b (ix2 i j) = logSoftmax (lin a x wl wr b) i j := rfl

/-- `lin` at row `i` reads row `i` of `a` and of `x` only: two pairs of tables (of any heights) that agree on a
    row give the same entries there. -/
theorem lin_rows (a x : (⟨2, ![n, d]⟩ : Shape).Idx → EReal) (a' x' : (⟨2, ![n', d]⟩ : Shape).Idx → EReal)
    (wl wr : (⟨2, ![d, e]⟩ : Shape).Idx → EReal) (b : (⟨1, ![e]⟩ : Shape).Idx → EReal) (i : Fin n) (i' : Fin n')
    (ha : ∀ k, a (ix2 i k) = a' (ix2 i' k)) (hx : ∀ k, x (ix2 i k) = x' (ix2 i' k)) (j : Fin e) :
    lin a x wl wr b i j = lin a' x' wl wr b i' j := by
  unfold lin
  simp only [ha, hx]

/-- The log-softmax of a row depends on that row only. -/
theorem logSoftmax_rows (z : Fin n → Fin e → EReal) (z' : Fin n' → Fin e → EReal) (i : Fin n) (i' : Fin n')
    (h : ∀ j, z i j = z' i' j) (j : Fin e) : logSoftmax z i j = logSoftmax z' i' j := by
  have hr : z i = z' i' := funext h
  unfold logSoftmax rowMax
  simp only [h, hr]

end Cert.Sage

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.Block0.lean ====
/-
  What the first layer's kernel body stores, entry by entry.

  The body loads a block of 4000 rows of the aggregated features and of the node features, both weight matrices and
  the one-row bias table, rounds the four matrix operands to a narrower format (no change on the extended reals),
  multiplies, adds the bias row to every row, adds the second product and keeps the positive part. Entry (p, q) of
  what it stores is therefore max (Σ_k a (p, k) wl (k, q) + bias q + Σ_k x (p, k) wr (k, q), 0): the first layer's
  table of the blocks.
-/
import proofs.«122850_j60086592471214_1_alg».proof.Proof.Gen.KernelIdeal.Skeleton
import proofs.«122850_j60086592471214_1_alg».proof.Proof.Spec
import proofs.«122850_j60086592471214_1_alg».proof.Proof.LibPlainDot
import proofs.«122850_j60086592471214_1_alg».proof.Proof.LibRowBroadcast
import Idealize.ShloMosaic.PureOps.Ideal.Laws
import Idealize.ShloMosaic.Lib.ValueIdx
import Idealize.ShloMosaic.Lib.Pipeline.Value

noncomputable section

namespace Cert.KernelIdeal.Block0

open Cert.KernelIdeal Cert.KernelIdeal.Gen Idealize.ShloMosaic Idealize.ShloMosaic.ValueIdx
open scoped BigOperators

/-- The stored value of the first layer's body is the first layer's table of its loaded blocks, the bias read off
    the one-row table. -/
theorem pay0_eq (v0 v3 : Vec Ideal S4000x128 .f32) (v5 v7 : Vec Ideal S128x128 .f32) (v10 : Vec Ideal S1x128 .f32)
    (b : (⟨1, ![128]⟩ : Shape).Idx → EReal) (hb : ∀ q : Fin 128, v10 (ix2 (0 : Fin 1) q) = b (ix1 q)) :
    k0_pay1 (F := Ideal) v0 v3 v5 v7 v10 = Cert.Sage.hidden v0 v3 v5 v7 b := by
  funext y
  obtain ⟨p, q, rfl⟩ : ∃ (p : Fin 4000) (q : Fin 128), y = ix2 p q := ⟨y 0, y 1, eq_ix2 y⟩
  rw [Cert.Sage.hidden_apply]
  unfold k0_pay1 Cert.Sage.lin
  rw [shapeCast_self, shapeCast_self]
  -- the positive part, entry by entry; the zero it is compared with is the splat of the zero word
  refine congrArg₂ max ?_ Ideal.ofBits_zero_f32
  -- a · wl, then the bias row repeated down the rows, then x · wr
  refine congrArg₂ (· + ·) (congrArg₂ (· + ·) ?_ ?_) ?_
  · exact Cert.LibPlainDot.matmul_zero_apply dot_S4000x128_S128x128_S4000x128_1_0_0_1_n_n rfl rfl rfl rfl rfl rfl none _ _ p q
  · exact (RowBroadcast.broadcastTo_row v10 broadcasts_S1x128_S4000x128 p q).trans (hb q)
  · exact Cert.LibPlainDot.matmul_zero_apply dot_S4000x128_S128x128_S4000x128_1_0_0_1_n_n rfl rfl rfl rfl rfl rfl none _ _ p q

end Cert.KernelIdeal.Block0

end
-- ==== Proof.Region0.lean ====
/-
  The first layer's output array after its pallas_call, as one table.

  The call walks 25 grid points; point t loads rows 4000·t … 4000·t + 3999 of the aggregated features and of the node
  features, the two weight matrices and the one-row bias table whole, and writes back rows 4000·t … 4000·t + 3999 of the
  output. What it writes is the first layer's table (Spec: `hidden`) of the loaded blocks, and an entry of that table depends on its
  own row of the two feature tables only, so block t of the output is block t of the same table formed from the WHOLE
  arrays. The 25 blocks tile the 100000 rows, hence the array after the call is that table everywhere.
-/
import proofs.«122850_j60086592471214_1_alg».proof.Proof.Gen.KernelIdeal.Frame
import proofs.«122850_j60086592471214_1_alg».proof.Proof.Block0
import proofs.«122850_j60086592471214_1_alg».proof.Proof.Spec
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

set_option maxRecDepth 16384

variable (V : (c : Dev nD) → (b : Ref sig .tc) → Buf (Elt Ideal) ((c : Thread nD τ).loc b))

/-- The two zero offsets of a whole-buffer access, as the constant function. -/
theorem zero_offsets : (![0, 0] : Fin 2 → Nat) = fun _ => 0 :=
  funext fun a => match a with | ⟨0, _⟩ => rfl | ⟨1, _⟩ => rfl

/-- The index maps over the 25 points: the two feature windows move with the output window along the rows (block t at
    point t), no window moves along the columns, and the weights and the bias table stay at block (0, 0). -/
theorem index_facts : ∀ t : Fin cfg0.N,
    win0_5.index t (0 : Fin 2) = t.val
    ∧ win0_0.index t (0 : Fin 2) = win0_5.index t (0 : Fin 2)
    ∧ win0_1.index t (0 : Fin 2) = win0_5.index t (0 : Fin 2)
    ∧ win0_0.index t (1 : Fin 2) = 0
    ∧ win0_1.index t (1 : Fin 2) = 0
    ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Block t of the aggregated features is rows 4000·t … 4000·t + 3999 of the array: entry (p, k) of the block is entry
    (4000·t + p, k) of the array. -/
theorem agg_block (c : Dev nD) (t : Fin cfg0.N) (p : Fin 4000) (k : Fin 128) (r : Fin 100000)
    (hr : r.val = win0_5.index t (0 : Fin 2) * 4000 + p.val) :
    (iblk0 (F := Ideal) V c 0 t : Vec Ideal S4000x128 .f32) (ix2 p k) = V c main_v22 (ix2 r k) := by
  obtain ⟨-, e0, -, e1, -⟩ := index_facts t
  unfold iblk0
  rw [View.read_apply]
  show V c main_v22 _ = V c main_v22 _
  congr 1
  funext a
  apply Fin.ext
  match a with
  | ⟨0, _⟩ => show win0_0.index t (0 : Fin 2) * 4000 + 1 * p.val = r.val; omega
  | ⟨1, _⟩ => show win0_0.index t (1 : Fin 2) * 128 + 1 * k.val = k.val; omega

/-- The same for the node features. -/
theorem feat_block (c : Dev nD) (t : Fin cfg0.N) (p : Fin 4000) (k : Fin 128) (r : Fin 100000)
    (hr : r.val = win0_5.index t (0 : Fin 2) * 4000 + p.val) :
    (iblk0 (F := Ideal) V c 1 t : Vec Ideal S4000x128 .f32) (ix2 p k) = V c main_arg0 (ix2 r k) := by
  obtain ⟨-, -, e0, -, e1, -⟩ := index_facts t
  unfold iblk0
  rw [View.read_apply]
  show V c main_arg0 _ = V c main_arg0 _
  congr 1
  funext a
  apply Fin.ext
  match a with
  | ⟨0, _⟩ => show win0_1.index t (0 : Fin 2) * 4000 + 1 * p.val = r.val; omega
  | ⟨1, _⟩ => show win0_1.index t (1 : Fin 2) * 128 + 1 * k.val = k.val; omega

/-- The first weight matrix is loaded whole at every point. -/
theorem wl_block (c : Dev nD) (t : Fin cfg0.N) :
    (iblk0 (F := Ideal) V c 2 t : Vec Ideal S128x128 .f32) = V c main_arg3 := by
  obtain ⟨-, -, -, -, -, -, e0, e1, -⟩ := index_facts t
  funext j
  unfold iblk0
  rw [View.read_apply]
  show V c main_arg3 _ = V c main_arg3 j
  congr 1
  funext a
  apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- So is the second. -/
theorem wr_block (c : Dev nD) (t : Fin cfg0.N) :
    (iblk0 (F := Ideal) V c 4 t : Vec Ideal S128x128 .f32) = V c main_arg5 := by
  obtain ⟨-, -, -, -, -, -, -, -, -, -, e0, e1⟩ := index_facts t
  funext j
  unfold iblk0
  rw [View.read_apply]
  show V c main_arg5 _ = V c main_arg5 j
  congr 1
  funext a
  apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- And the one-row bias table. -/
theorem bias_block (c : Dev nD) (t : Fin cfg0.N) (q : Fin 128) :
    (iblk0 (F := Ideal) V c 3 t : Vec Ideal S1x128 .f32) (ix2 (0 : Fin 1) q) = V c main_v23 (ix2 (0 : Fin 1) q) := by
  obtain ⟨-, -, -, -, -, -, -, -, e0, e1, -⟩ := index_facts t
  unfold iblk0
  rw [View.read_apply]
  show V c main_v23 _ = V c main_v23 _
  congr 1
  funext a
  apply Fin.ext
  match a with
  | ⟨0, _⟩ => show win0_3.index t (0 : Fin 2) * 1 + 1 * ((0 : Fin 1) : Nat) = ((0 : Fin 1) : Nat); omega
  | ⟨1, _⟩ => show win0_3.index t (1 : Fin 2) * 128 + 1 * q.val = q.val; omega

/-- Entry (p, q) of the output's block t sits at entry (4000·t + p, q) of the output array. -/
theorem out_entry (t : Fin cfg0.N) (p : Fin 4000) (q : Fin 128) (r : Fin 100000)
    (hr : r.val = win0_5.index t (0 : Fin 2) * 4000 + p.val) :
    ((cfg0.win 5).blk t).view.emb (ix2 p q) = (ix2 r q : S100000x128.Idx) := by
  obtain ⟨-, -, -, -, -, e1, -⟩ := index_facts t
  funext a
  apply Fin.ext
  match a with
  | ⟨0, _⟩ => show win0_5.index t (0 : Fin 2) * 4000 + 1 * p.val = r.val; omega
  | ⟨1, _⟩ => show win0_5.index t (1 : Fin 2) * 128 + 1 * q.val = q.val; omega

/-- What point t writes back is block t of the first layer's table of the WHOLE arrays: the body leaves the table of the
    loaded blocks; its entry (p, q) reads row p of the two feature blocks, which is row 4000·t + p of the two feature
    arrays, and the weights and the bias as they are. -/
theorem flushed_eq (c : Dev nD) (b : (⟨1, ![128]⟩ : Shape).Idx → EReal)
    (hb : ∀ q : Fin 128, V c main_v23 (ix2 (0 : Fin 1) q) = b (ix1 q)) (t : Fin cfg0.N) :
    (dat0 (F := Ideal) V c).flushed 5 t = ((cfg0.win 5).blk t).view.read (Elt Ideal)
      (Cert.Sage.hidden (V c main_v22) (V c main_arg0) (V c main_arg3) (V c main_arg5) b) := by
  show (cfg0.win 5).cut (grid0.coords t) ((dat0 V c).after 5 t) = _
  rw [after0_5]
  unfold out0_5
  rw [View.canon_unit_zero zero_offsets]
  simp only [View.ld_unit_zero (S := S4000x128) zero_offsets, View.ld_unit_zero (S := S128x128) zero_offsets,
    View.ld_unit_zero (S := S1x128) zero_offsets]
  rw [Block0.pay0_eq _ _ _ _ _ b (fun q => (bias_block V c t q).trans (hb q))]
  have hN : t.val < 25 := lt_of_lt_of_eq t.isLt N_0
  obtain ⟨e5, -⟩ := index_facts t
  funext j
  obtain ⟨p, q, rfl⟩ : ∃ (p : Fin 4000) (q : Fin 128), j = ix2 p q := ⟨j 0, j 1, eq_ix2 j⟩
  have hr : (⟨t.val * 4000 + p.val, by omega⟩ : Fin 100000).val = win0_5.index t (0 : Fin 2) * 4000 + p.val := by
    rw [e5]
  show Cert.Sage.hidden _ _ _ _ b (ix2 p q) = Cert.Sage.hidden _ _ _ _ b (((cfg0.win 5).blk t).view.emb (ix2 p q))
  rw [out_entry t p q _ hr, Cert.Sage.hidden_apply, Cert.Sage.hidden_apply, wl_block, wr_block]
  exact congrArg (fun z => max z 0)
    (Cert.Sage.lin_rows _ _ _ _ _ _ _ p _ (fun k => agg_block V c t p k _ hr) (fun k => feat_block V c t p k _ hr) q)

/-- An entry of the output array lies in point t's block iff each coordinate lies in the block's range on its axis. -/
theorem mem_block (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v24).slice (win0_5.rect t)).set ↔ _
  rw [View.set_slice_whole, Rect.mem_set_unit]
  exact Iff.rfl

/-- The 25 blocks of 4000 rows tile the 100000 rows: row r lies in block r / 4000, which point r / 4000 writes back. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by omega⟩, rfl⟩
  obtain ⟨e5, -, -, -, -, e1, -⟩ := index_facts t
  refine ⟨t, flush0_5 t, ?_⟩
  rw [mem_block]
  intro a
  match a with
  | ⟨0, _⟩ =>
    show win0_5.index t (0 : Fin 2) * 4000 ≤ (i 0).val ∧ (i 0).val < win0_5.index t (0 : Fin 2) * 4000 + 4000
    omega
  | ⟨1, _⟩ =>
    show win0_5.index t (1 : Fin 2) * 128 ≤ (i 1).val ∧ (i 1).val < win0_5.index t (1 : Fin 2) * 128 + 128
    omega

/-- After region 0 its output array holds the first layer's table (Spec: `hidden`) of the arrays the region was entered with
    (window 0 the aggregated features, window 1 the node features, windows 2 and 4 the weights, window 3 the one-row
    bias table, which `hb` reads as the vector `b`). -/
theorem arr0 (c : Dev nD) (b : (⟨1, ![128]⟩ : Shape).Idx → EReal)
    (hb : ∀ q : Fin 128, V c main_v23 (ix2 (0 : Fin 1) q) = b (ix1 q)) :
    (dat0 (F := Ideal) V c).arrAt 5 cfg0.N = Cert.Sage.hidden (V c main_v22) (V c main_arg0) (V c main_arg3) (V c main_arg5) b :=
  (dat0 (F := Ideal) V c).arrAt_eq_of_cover 5 _ (fun t _ => flushed_eq V c b hb t) covered

end Cert.KernelIdeal.Region0

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.Block1.lean ====
/-
  What the second layer's kernel body stores, entry by entry.

  The body forms z = a · wl + bias + x · wr on a block of 4000 rows as the first layer's does, then takes each row's
  maximum (a lane reduction from −∞), subtracts it, exponentiates, sums each row (a lane reduction from 0), takes the
  logarithm of the sum and subtracts it from the shifted row. Entry (p, q) of what it stores is the row-wise
  log-softmax of z at (p, q): the second layer's table of the blocks.

  The body is read in two halves. The first half, `preLogits`, is the table z; entry (p, q) of it is
  Σ_k a (p, k) wl (k, q) + bias q + Σ_k x (p, k) wr (k, q) (`preLogits_apply`). The second half, `rowLogSoftmax`,
  takes any 4000 × 64 table z to (z (p, q) − M p) − log Σ_k exp (z (p, k) − M p), M p the maximum of row p
  (`rowLogSoftmax_apply`). The two reductions along a row are read as a fold of max and as a sum over the 64 column
  indices of that row (`rowMax_apply`, `rowSum_apply`); a reduced vector kept as a column and repeated along the rows
  gives back, at (p, q), its p-th value (`column_apply`).
-/
import proofs.«122850_j60086592471214_1_alg».proof.Proof.Gen.KernelIdeal.Skeleton
import proofs.«122850_j60086592471214_1_alg».proof.Proof.Spec
import proofs.«122850_j60086592471214_1_alg».proof.Proof.LibPlainDot
import proofs.«122850_j60086592471214_1_alg».proof.Proof.LibRowBroadcast
import proofs.«122850_j60086592471214_1_alg».proof.Proof.LibColumnForms
import Idealize.ShloMosaic.PureOps.Ideal.Laws
import Idealize.ShloMosaic.Lib.ValueIdx
import Idealize.ShloMosaic.Lib.Pipeline.Value

noncomputable section

namespace Cert.KernelIdeal.Block1

open Cert.KernelIdeal Cert.KernelIdeal.Gen Idealize.ShloMosaic Idealize.ShloMosaic.ValueIdx
open scoped BigOperators

/-- The word the row maximum starts from is −∞: sign bit set, every exponent bit set, significand zero. -/
theorem ofBits_negInf_f32 : Ideal.ofBits .f32 0xFF800000#32 = ⊥ := by simp [Ideal.ofBits, Ideal.ieee]

/-- Reducing a 4000 × 64 table along its second axis: the index of row p with the column coordinate k put back is
    (p, k). -/
theorem lift_row (h : Shape.Reduces ⟨2, ![4000, 64]⟩ [1] ⟨1, ![4000]⟩) (p : Fin 4000) (k : Fin 64) :
    h.lift (ix1 p) k = ix2 p k :=
  funext fun ax => Fin.ext (match ax with
    | ⟨0, _⟩ => rfl
    | ⟨1, _⟩ => rfl)

/-- The maximum reduction along the rows, from −∞, at row p: the fold of max from ⊥ over the 64 entries of row p. -/
theorem rowMax_apply (z : FVec Ideal ⟨2, ![4000, 64]⟩ .f32) (h : Shape.Reduces ⟨2, ![4000, 64]⟩ [1] ⟨1, ![4000]⟩)
    (hφ : FKind.Formats .f32) (hacc : (0xFF800000#32 : BitVec 32) = FKind.maximumf.neutral .f32 hφ) (p : Fin 4000) :
    multiReduction .maximumf [1] ⟨1, ![4000]⟩ z 0xFF800000#32 h hφ hacc (ix1 p)
      = (Finset.univ : Finset (Fin 64)).fold max ⊥ (fun k => z (ix2 p k)) :=
  (Ideal.multiReduction_maximumf_single z _ h hφ hacc (ix1 p)).trans
    (congrArg₂ (fun (b : EReal) (f : Fin 64 → EReal) => (Finset.univ : Finset (Fin 64)).fold max b f)
      ofBits_negInf_f32 (funext fun k => congrArg z (lift_row h p k)))

/-- The sum reduction along the rows, from 0, at row p: the sum of the 64 entries of row p. -/
theorem rowSum_apply (z : FVec Ideal ⟨2, ![4000, 64]⟩ .f32) (h : Shape.Reduces ⟨2, ![4000, 64]⟩ [1] ⟨1, ![4000]⟩)
    (hφ : FKind.Formats .f32) (hacc : (0x00000000#32 : BitVec 32) = FKind.add.neutral .f32 hφ) (p : Fin 4000) :
    multiReduction .add [1] ⟨1, ![4000]⟩ z 0x00000000#32 h hφ hacc (ix1 p) = ∑ k : Fin 64, z (ix2 p k) :=
  (Ideal.multiReduction_add_single z _ h hφ hacc (ix1 p)).trans
    (Finset.sum_congr rfl fun k _ => congrArg z (lift_row h p k))

/-- A vector of 4000 row values kept as a column and repeated along the rows: entry (p, q) is the p-th value. -/
theorem column_apply (r : FVec Ideal ⟨1, ![4000]⟩ .f32) (hc : (⟨1, ![4000]⟩ : Shape).ShapeCasts ⟨2, ![4000, 1]⟩)
    (hb : (⟨2, ![4000, 1]⟩ : Shape).Broadcasts ⟨2, ![4000, 64]⟩) (p : Fin 4000) (q : Fin 64) :
    broadcastTo ⟨2, ![4000, 64]⟩ (shapeCast ⟨2, ![4000, 1]⟩ r hc) hb (ix2 p q) = r (ix1 p) :=
  (ColumnForms.broadcastTo_a1_ac_apply _ hb p q).trans (ColumnForms.shapeCast_a_a1_apply r hc p 0)

/-- The second half of the body, as a function of the table z it is applied to: the row maxima, kept as a column
    and subtracted; the exponentials; their row sums, kept as a column; the logarithm; the last subtraction. -/
def rowLogSoftmax (z : FVec Ideal S4000x64 .f32) : FVec Ideal S4000x64 .f32 :=
  have v17 : FVec Ideal S4000 .f32 := multiReduction .maximumf [1] S4000 z 0xFF800000#32 reduces_S4000x64_S4000 (.inl rfl) rfl
  have v18 : FVec Ideal S4000x1 .f32 := shapeCast S4000x1 v17 shapeCasts_S4000_S4000x1
  have v19 : FVec Ideal S4000x64 .f32 := broadcastTo S4000x64 v18 broadcasts_S4000x1_S4000x64
  have v20 : FVec Ideal S4000x64 .f32 := subf z v19
  have v21 : FVec Ideal S4000x64 .f32 := exp v20
  have v22 : FVec Ideal S4000 .f32 := multiReduction .add [1] S4000 v21 0x00000000#32 reduces_S4000x64_S4000 (.inl rfl) rfl
  have v23 : FVec Ideal S4000x1 .f32 := shapeCast S4000x1 v22 shapeCasts_S4000_S4000x1
  have v24 : FVec Ideal S4000x1 .f32 := log v23
  have v25 : FVec Ideal S4000x64 .f32 := broadcastTo S4000x64 v24 broadcasts_S4000x1_S4000x64
  have v26 : FVec Ideal S4000x64 .f32 := subf v20 v25
  v26

/-- The second half at entry (p, q) is the log-softmax of row p at q, for any table Z the operand agrees with entry
    by entry. -/
theorem rowLogSoftmax_apply (z : FVec Ideal S4000x64 .f32) (Z : Fin 4000 → Fin 64 → EReal)
    (hz : ∀ (p : Fin 4000) (k : Fin 64), z (ix2 p k) = Z p k) (p : Fin 4000) (q : Fin 64) :
    rowLogSoftmax z (ix2 p q) = Cert.Sage.logSoftmax Z p q := by
  have hZ : (fun k => z (ix2 p k)) = Z p := funext (hz p)
  -- what is subtracted from every entry (p, k) of row p is the maximum of row p, whatever the column k
  have hM : ∀ k : Fin 64,
      broadcastTo S4000x64 (shapeCast S4000x1 (multiReduction .maximumf [1] S4000 z 0xFF800000#32
        reduces_S4000x64_S4000 (.inl rfl) rfl) shapeCasts_S4000_S4000x1) broadcasts_S4000x1_S4000x64 (ix2 p k)
        = Cert.Sage.rowMax Z p := fun k =>
    (column_apply _ shapeCasts_S4000_S4000x1 broadcasts_S4000x1_S4000x64 p k).trans
      ((rowMax_apply z reduces_S4000x64_S4000 _ _ p).trans (congrArg (Finset.univ.fold max ⊥) hZ))
  unfold rowLogSoftmax Cert.Sage.logSoftmax
  -- the shifted entry, less the logarithm of the row's sum of exponentials of its shifted entries
  refine congrArg₂ (· - ·) (congrArg₂ (· - ·) (hz p q) (hM q)) ?_
  -- the logarithm is taken on the column; entry (p, q) of its repetition is its entry (p, 0)
  refine (ColumnForms.broadcastTo_a1_ac_apply _ broadcasts_S4000x1_S4000x64 p q).trans ?_
  refine congrArg Ideal.log ?_
  -- the column's entry (p, 0) is the p-th row sum, a sum over the 64 columns of the exponentials of shifted entries
  refine (ColumnForms.shapeCast_a_a1_apply _ shapeCasts_S4000_S4000x1 p 0).trans ?_
  refine (rowSum_apply _ reduces_S4000x64_S4000 _ _ p).trans ?_
  exact Finset.sum_congr rfl fun k _ => congrArg Ideal.exp (congrArg₂ (· - ·) (hz p k) (hM k))

/-- The first half of the body, the table z: a · wl into a zero accumulator, plus the bias row repeated down the
    rows, plus x · wr into a zero accumulator; the four matrix operands rounded to a narrower format first. -/
def preLogits (v0 v3 : Vec Ideal S4000x128 .f32) (v6 v8 : Vec Ideal S128x64 .f32) (v11 : Vec Ideal S1x64 .f32) :
    FVec Ideal S4000x64 .f32 :=
  addf (addf
      (matmul dot_S4000x128_S128x64_S4000x64_1_0_0_1_n_n none
        (truncf .bf16 (shapeCast S4000x128 v0 shapeCasts_S4000x128_S4000x128) bitsLt_bf16_f32)
        (truncf .bf16 v6 bitsLt_bf16_f32) (constant S4000x64 .f32 0x00000000#32))
      (broadcastTo S4000x64 (shapeCast S1x64 v11 shapeCasts_S1x64_S1x64) broadcasts_S1x64_S4000x64))
    (matmul dot_S4000x128_S128x64_S4000x64_1_0_0_1_n_n none
      (truncf .bf16 (shapeCast S4000x128 v3 shapeCasts_S4000x128_S4000x128) bitsLt_bf16_f32)
      (truncf .bf16 v8 bitsLt_bf16_f32) (constant S4000x64 .f32 0x00000000#32))

/-- The body is its second half applied to its first. -/
theorem pay1_split (v0 v3 : Vec Ideal S4000x128 .f32) (v6 v8 : Vec Ideal S128x64 .f32) (v11 : Vec Ideal S1x64 .f32) :
    k1_pay1 (F := Ideal) v0 v3 v6 v8 v11 = rowLogSoftmax (preLogits v0 v3 v6 v8 v11) := rfl

/-- Entry (p, q) of the table z. The casts are between equal shapes and the rounding changes nothing on the extended
    reals, so the two products are the plain sums over k; the bias row's entry (0, q) is the bias at q. -/
theorem preLogits_apply (v0 v3 : Vec Ideal S4000x128 .f32) (v6 v8 : Vec Ideal S128x64 .f32) (v11 : Vec Ideal S1x64 .f32)
    (b : (⟨1, ![64]⟩ : Shape).Idx → EReal) (hb : ∀ q : Fin 64, v11 (ix2 (0 : Fin 1) q) = b (ix1 q))
    (p : Fin 4000) (q : Fin 64) :
    preLogits v0 v3 v6 v8 v11 (ix2 p q) = Cert.Sage.lin v0 v3 v6 v8 b p q := by
  unfold preLogits Cert.Sage.lin
  rw [shapeCast_self, shapeCast_self, shapeCast_self]
  -- a · wl, then the bias row repeated down the rows, then x · wr
  refine congrArg₂ (· + ·) (congrArg₂ (· + ·) ?_ ?_) ?_
  · exact Cert.LibPlainDot.matmul_zero_apply dot_S4000x128_S128x64_S4000x64_1_0_0_1_n_n rfl rfl rfl rfl rfl rfl none _ _ p q
  · exact (RowBroadcast.broadcastTo_row v11 broadcasts_S1x64_S4000x64 p q).trans (hb q)
  · exact Cert.LibPlainDot.matmul_zero_apply dot_S4000x128_S128x64_S4000x64_1_0_0_1_n_n rfl rfl rfl rfl rfl rfl none _ _ p q

/-- The stored value of the second layer's body is the second layer's table of its loaded blocks, the bias read off
    the one-row table. -/
theorem pay1_eq (v0 v3 : Vec Ideal S4000x128 .f32) (v6 v8 : Vec Ideal S128x64 .f32) (v11 : Vec Ideal S1x64 .f32)
    (b : (⟨1, ![64]⟩ : Shape).Idx → EReal) (hb : ∀ q : Fin 64, v11 (ix2 (0 : Fin 1) q) = b (ix1 q)) :
    k1_pay1 (F := Ideal) v0 v3 v6 v8 v11 = Cert.Sage.logits v0 v3 v6 v8 b := by
  funext y
  obtain ⟨p, q, rfl⟩ : ∃ (p : Fin 4000) (q : Fin 64), y = ix2 p q := ⟨y 0, y 1, eq_ix2 y⟩
  rw [Cert.Sage.logits_apply, pay1_split]
  exact rowLogSoftmax_apply _ _ (preLogits_apply v0 v3 v6 v8 v11 b hb) p q

end Cert.KernelIdeal.Block1

end
-- ==== Proof.Region1.lean ====
/-
  The second layer's output array after its pallas_call, as one table.

  The call walks 25 grid points; point t loads rows 4000·t … 4000·t + 3999 of the aggregated features and of the node
  features, the two weight matrices and the one-row bias table whole, and writes back rows 4000·t … 4000·t + 3999 of the
  output. What it writes is the second layer's table (Spec: `logits`) of the loaded blocks, and an entry of that table depends on its
  own row of the two feature tables only, so block t of the output is block t of the same table formed from the WHOLE
  arrays. The 25 blocks tile the 100000 rows, hence the array after the call is that table everywhere.
-/
import proofs.«122850_j60086592471214_1_alg».proof.Proof.Gen.KernelIdeal.Frame
import proofs.«122850_j60086592471214_1_alg».proof.Proof.Block1
import proofs.«122850_j60086592471214_1_alg».proof.Proof.Spec
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

set_option maxRecDepth 16384

variable (V : (c : Dev nD) → (b : Ref sig .tc) → Buf (Elt Ideal) ((c : Thread nD τ).loc b))

/-- The two zero offsets of a whole-buffer access, as the constant function. -/
theorem zero_offsets : (![0, 0] : Fin 2 → Nat) = fun _ => 0 :=
  funext fun a => match a with | ⟨0, _⟩ => rfl | ⟨1, _⟩ => rfl

/-- The index maps over the 25 points: the two feature windows move with the output window along the rows (block t at
    point t), no window moves along the columns, and the weights and the bias table stay at block (0, 0). -/
theorem index_facts : ∀ t : Fin cfg1.N,
    win1_5.index t (0 : Fin 2) = t.val
    ∧ win1_0.index t (0 : Fin 2) = win1_5.index t (0 : Fin 2)
    ∧ win1_1.index t (0 : Fin 2) = win1_5.index t (0 : Fin 2)
    ∧ win1_0.index t (1 : Fin 2) = 0
    ∧ win1_1.index t (1 : Fin 2) = 0
    ∧ win1_5.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Block t of the aggregated features is rows 4000·t … 4000·t + 3999 of the array: entry (p, k) of the block is entry
    (4000·t + p, k) of the array. -/
theorem agg_block (c : Dev nD) (t : Fin cfg1.N) (p : Fin 4000) (k : Fin 128) (r : Fin 100000)
    (hr : r.val = win1_5.index t (0 : Fin 2) * 4000 + p.val) :
    (iblk1 (F := Ideal) V c 0 t : Vec Ideal S4000x128 .f32) (ix2 p k) = V c main_v47 (ix2 r k) := by
  obtain ⟨-, e0, -, e1, -⟩ := index_facts t
  unfold iblk1
  rw [View.read_apply]
  show V c main_v47 _ = V c main_v47 _
  congr 1
  funext a
  apply Fin.ext
  match a with
  | ⟨0, _⟩ => show win1_0.index t (0 : Fin 2) * 4000 + 1 * p.val = r.val; omega
  | ⟨1, _⟩ => show win1_0.index t (1 : Fin 2) * 128 + 1 * k.val = k.val; omega

/-- The same for the nodes' own features (the first layer's table). -/
theorem feat_block (c : Dev nD) (t : Fin cfg1.N) (p : Fin 4000) (k : Fin 128) (r : Fin 100000)
    (hr : r.val = win1_5.index t (0 : Fin 2) * 4000 + p.val) :
    (iblk1 (F := Ideal) V c 1 t : Vec Ideal S4000x128 .f32) (ix2 p k) = V c main_v24 (ix2 r k) := by
  obtain ⟨-, -, e0, -, e1, -⟩ := index_facts t
  unfold iblk1
  rw [View.read_apply]
  show V c main_v24 _ = V c main_v24 _
  congr 1
  funext a
  apply Fin.ext
  match a with
  | ⟨0, _⟩ => show win1_1.index t (0 : Fin 2) * 4000 + 1 * p.val = r.val; omega
  | ⟨1, _⟩ => show win1_1.index t (1 : Fin 2) * 128 + 1 * k.val = k.val; omega

/-- The first weight matrix is loaded whole at every point. -/
theorem wl_block (c : Dev nD) (t : Fin cfg1.N) :
    (iblk1 (F := Ideal) V c 2 t : Vec Ideal S128x64 .f32) = V c main_arg6 := by
  obtain ⟨-, -, -, -, -, -, e0, e1, -⟩ := index_facts t
  funext j
  unfold iblk1
  rw [View.read_apply]
  show V c main_arg6 _ = V c main_arg6 j
  congr 1
  funext a
  apply Fin.ext
  match a with
  | ⟨0, _⟩ => show win1_2.index t (0 : Fin 2) * 128 + 1 * (j 0).val = (j 0).val; omega
  | ⟨1, _⟩ => show win1_2.index t (1 : Fin 2) * 64 + 1 * (j 1).val = (j 1).val; omega

/-- So is the second. -/
theorem wr_block (c : Dev nD) (t : Fin cfg1.N) :
    (iblk1 (F := Ideal) V c 4 t : Vec Ideal S128x64 .f32) = V c main_arg8 := by
  obtain ⟨-, -, -, -, -, -, -, -, -, -, e0, e1⟩ := index_facts t
  funext j
  unfold iblk1
  rw [View.read_apply]
  show V c main_arg8 _ = V c main_arg8 j
  congr 1
  funext a
  apply Fin.ext
  match a with
  | ⟨0, _⟩ => show win1_4.index t (0 : Fin 2) * 128 + 1 * (j 0).val = (j 0).val; omega
  | ⟨1, _⟩ => show win1_4.index t (1 : Fin 2) * 64 + 1 * (j 1).val = (j 1).val; omega

/-- And the one-row bias table. -/
theorem bias_block (c : Dev nD) (t : Fin cfg1.N) (q : Fin 64) :
    (iblk1 (F := Ideal) V c 3 t : Vec Ideal S1x64 .f32) (ix2 (0 : Fin 1) q) = V c main_v48 (ix2 (0 : Fin 1) q) := by
  obtain ⟨-, -, -, -, -, -, -, -, e0, e1, -⟩ := index_facts t
  unfold iblk1
  rw [View.read_apply]
  show V c main_v48 _ = V c main_v48 _
  congr 1
  funext a
  apply Fin.ext
  match a with
  | ⟨0, _⟩ => show win1_3.index t (0 : Fin 2) * 1 + 1 * ((0 : Fin 1) : Nat) = ((0 : Fin 1) : Nat); omega
  | ⟨1, _⟩ => show win1_3.index t (1 : Fin 2) * 64 + 1 * q.val = q.val; omega

/-- Entry (p, q) of the output's block t sits at entry (4000·t + p, q) of the output array. -/
theorem out_entry (t : Fin cfg1.N) (p : Fin 4000) (q : Fin 64) (r : Fin 100000)
    (hr : r.val = win1_5.index t (0 : Fin 2) * 4000 + p.val) :
    ((cfg1.win 5).blk t).view.emb (ix2 p q) = (ix2 r q : S100000x64.Idx) := by
  obtain ⟨-, -, -, -, -, e1, -⟩ := index_facts t
  funext a
  apply Fin.ext
  match a with
  | ⟨0, _⟩ => show win1_5.index t (0 : Fin 2) * 4000 + 1 * p.val = r.val; omega
  | ⟨1, _⟩ => show win1_5.index t (1 : Fin 2) * 64 + 1 * q.val = q.val; omega

/-- What point t writes back is block t of the second layer's table of the WHOLE arrays: the body leaves the table of the
    loaded blocks; row p of it is formed from row p of the two feature blocks, which is row 4000·t + p of the two feature
    arrays, and from the weights and the bias as they are. -/
theorem flushed_eq (c : Dev nD) (b : (⟨1, ![64]⟩ : Shape).Idx → EReal)
    (hb : ∀ q : Fin 64, V c main_v48 (ix2 (0 : Fin 1) q) = b (ix1 q)) (t : Fin cfg1.N) :
    (dat1 (F := Ideal) V c).flushed 5 t = ((cfg1.win 5).blk t).view.read (Elt Ideal)
      (Cert.Sage.logits (V c main_v47) (V c main_v24) (V c main_arg6) (V c main_arg8) b) := by
  show (cfg1.win 5).cut (grid1.coords t) ((dat1 V c).after 5 t) = _
  rw [after1_5]
  unfold out1_5
  rw [View.canon_unit_zero zero_offsets]
  simp only [View.ld_unit_zero (S := S4000x128) zero_offsets, View.ld_unit_zero (S := S128x64) zero_offsets,
    View.ld_unit_zero (S := S1x64) zero_offsets]
  rw [Block1.pay1_eq _ _ _ _ _ b (fun q => (bias_block V c t q).trans (hb q))]
  have hN : t.val < 25 := lt_of_lt_of_eq t.isLt N_1
  obtain ⟨e5, -⟩ := index_facts t
  funext j
  obtain ⟨p, q, rfl⟩ : ∃ (p : Fin 4000) (q : Fin 64), j = ix2 p q := ⟨j 0, j 1, eq_ix2 j⟩
  have hr : (⟨t.val * 4000 + p.val, by omega⟩ : Fin 100000).val = win1_5.index t (0 : Fin 2) * 4000 + p.val := by
    rw [e5]
  show Cert.Sage.logits _ _ _ _ b (ix2 p q) = Cert.Sage.logits _ _ _ _ b (((cfg1.win 5).blk t).view.emb (ix2 p q))
  rw [out_entry t p q _ hr, Cert.Sage.logits_apply, Cert.Sage.logits_apply, wl_block, wr_block]
  exact Cert.Sage.logSoftmax_rows _ _ p _
    (Cert.Sage.lin_rows _ _ _ _ _ _ _ p _ (fun k => agg_block V c t p k _ hr) (fun k => feat_block V c t p k _ hr)) q

/-- An entry of the output array lies in point t's block iff each coordinate lies in the block's range on its axis. -/
theorem mem_block (t : Fin cfg1.N) (i : S100000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v49).slice (win1_5.rect t)).set ↔ _
  rw [View.set_slice_whole, Rect.mem_set_unit]
  exact Iff.rfl

/-- The 25 blocks of 4000 rows tile the 100000 rows: row r lies in block r / 4000, which point r / 4000 writes back. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by omega⟩, rfl⟩
  obtain ⟨e5, -, -, -, -, e1, -⟩ := index_facts t
  refine ⟨t, flush1_5 t, ?_⟩
  rw [mem_block]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 64 ≤ (i 1).val ∧ (i 1).val < win1_5.index t (1 : Fin 2) * 64 + 64
    omega

/-- After region 1 its output array holds the second layer's table (Spec: `logits`) of the arrays the region was entered with
    (window 0 the aggregated features, window 1 the node features, windows 2 and 4 the weights, window 3 the one-row
    bias table, which `hb` reads as the vector `b`). -/
theorem arr1 (c : Dev nD) (b : (⟨1, ![64]⟩ : Shape).Idx → EReal)
    (hb : ∀ q : Fin 64, V c main_v48 (ix2 (0 : Fin 1) q) = b (ix1 q)) :
    (dat1 (F := Ideal) V c).arrAt 5 cfg1.N = Cert.Sage.logits (V c main_v47) (V c main_v24) (V c main_arg6) (V c main_arg8) b :=
  (dat1 (F := Ideal) V c).arrAt_eq_of_cover 5 _ (fun t _ => flushed_eq V c b hb t) covered

end Cert.KernelIdeal.Region1

end
-- ==== Proof.KValue.lean ====
/-
  The kernel program's result as one function of its arguments.

  Reading the buffers boundary by boundary: the first call is entered with the mean aggregation of the node features
  and the launch contents of the features, weights and bias; it leaves the first layer's table `hid` in its output.
  The second call is entered with the mean aggregation of `hid` over the second edge list, `hid` itself and the
  second layer's weights and bias; it leaves the second layer's table of those: the program's result.
-/
import proofs.«122850_j60086592471214_1_alg».proof.Proof.Gen.KernelIdeal.Frame
import proofs.«122850_j60086592471214_1_alg».proof.Proof.KHost
import proofs.«122850_j60086592471214_1_alg».proof.Proof.Region0
import proofs.«122850_j60086592471214_1_alg».proof.Proof.Region1
import proofs.«122850_j60086592471214_1_alg».proof.Proof.Spec
import Idealize.ShloMosaic.Lib.ValueLayout

set_option maxRecDepth 16384

noncomputable section

namespace Cert.KernelIdeal.KValue

open Cert.KernelIdeal Cert.KernelIdeal.Gen Cert.KernelIdeal.Agg Cert.KernelIdeal.HostReads
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first layer's table of the launch contents. -/
def hid (c : Dev nD) : (⟨S100000x128, .f32⟩ : BufTy).Contents (Elt Ideal) :=
  Cert.Sage.hidden (n := 100000) (d := 128) (e := 128) (agg (m ((c : Thread nD τ).loc main_arg0)) (m ((c : Thread nD τ).loc main_arg1))) (m ((c : Thread nD τ).loc main_arg0))
    (m ((c : Thread nD τ).loc main_arg3)) (m ((c : Thread nD τ).loc main_arg5)) (m ((c : Thread nD τ).loc main_arg4))

/-- The program's result of the launch contents: the second layer's table over the aggregated first layer. -/
def out (c : Dev nD) : (⟨S100000x64, .f32⟩ : BufTy).Contents (Elt Ideal) :=
  Cert.Sage.logits (n := 100000) (d := 128) (e := 64) (agg (hid m c) (m ((c : Thread nD τ).loc main_arg2))) (hid m c)
    (m ((c : Thread nD τ).loc main_arg6)) (m ((c : Thread nD τ).loc main_arg8)) (m ((c : Thread nD τ).loc main_arg7))

/-! ## Region 0's entry contents -/

theorem V1_v22 (c : Dev nD) : V1 m ρ c main_v22 = agg (m ((c : Thread nD τ).loc main_arg0)) (m ((c : Thread nD τ).loc main_arg1)) :=
  host0_v22 (W0 m ρ c)
theorem V1_v23 (c : Dev nD) : V1 m ρ c main_v23 = shapeCast S1x128 (m ((c : Thread nD τ).loc main_arg4)) shapeCasts_S128_S1x128 :=
  host0_v23 (W0 m ρ c)
theorem V1_arg0 (c : Dev nD) : V1 m ρ c main_arg0 = (m ((c : Thread nD τ).loc main_arg0)) := host0_arg0 (W0 m ρ c)
theorem V1_arg3 (c : Dev nD) : V1 m ρ c main_arg3 = (m ((c : Thread nD τ).loc main_arg3)) := host0_arg3 (W0 m ρ c)
theorem V1_arg5 (c : Dev nD) : V1 m ρ c main_arg5 = (m ((c : Thread nD τ).loc main_arg5)) := host0_arg5 (W0 m ρ c)

/-- The one-row bias table read as the bias vector. -/
theorem bias0 (c : Dev nD) (q : Fin 128) : V1 m ρ c main_v23 (ix2 (0 : Fin 1) q) = (m ((c : Thread nD τ).loc main_arg4)) (ix1 q) := by
  rw [V1_v23]
  exact shapeCast_a_1a_apply _ _ _ q

/-- After region 0 its output array holds the first layer's table. -/
theorem W2_v24 (c : Dev nD) : W2 m ρ c (Proc.devRef .tc main_v24) = hid m c := by
  refine (W2_arr m ρ c 5).trans ?_
  rw [Region0.arr0 (V1 m ρ) c (m ((c : Thread nD τ).loc main_arg4)) (bias0 m ρ c), V1_v22, V1_arg0, V1_arg3, V1_arg5]
  rfl

/-- A buffer that is no window of region 0 and that the first host stretch does not write is as launched. -/
theorem W2_arg2 (c : Dev nD) : W2 m ρ c (Proc.devRef .tc main_arg2) = (m ((c : Thread nD τ).loc main_arg2)) :=
  (W2_of_ne m ρ c main_arg2 (by decide)).trans (host0_arg2 (W0 m ρ c))
theorem W2_arg6 (c : Dev nD) : W2 m ρ c (Proc.devRef .tc main_arg6) = (m ((c : Thread nD τ).loc main_arg6)) :=
  (W2_of_ne m ρ c main_arg6 (by decide)).trans (host0_arg6 (W0 m ρ c))
theorem W2_arg7 (c : Dev nD) : W2 m ρ c (Proc.devRef .tc main_arg7) = (m ((c : Thread nD τ).loc main_arg7)) :=
  (W2_of_ne m ρ c main_arg7 (by decide)).trans (host0_arg7 (W0 m ρ c))
theorem W2_arg8 (c : Dev nD) : W2 m ρ c (Proc.devRef .tc main_arg8) = (m ((c : Thread nD τ).loc main_arg8)) :=
  (W2_of_ne m ρ c main_arg8 (by decide)).trans (host0_arg8 (W0 m ρ c))

/-! ## Region 1's entry contents -/

theorem V3_v47 (c : Dev nD) : V3 m ρ c main_v47 = agg (hid m c) (m ((c : Thread nD τ).loc main_arg2)) :=
  (host1_v47 (W2 m ρ c)).trans (by rw [W2_v24, W2_arg2])
theorem V3_v48 (c : Dev nD) : V3 m ρ c main_v48 = shapeCast S1x64 (m ((c : Thread nD τ).loc main_arg7)) shapeCasts_S64_S1x64 :=
  (host1_v48 (W2 m ρ c)).trans (by rw [W2_arg7])
theorem V3_v24 (c : Dev nD) : V3 m ρ c main_v24 = hid m c := (host1_v24 (W2 m ρ c)).trans (W2_v24 m ρ c)
theorem V3_arg6 (c : Dev nD) : V3 m ρ c main_arg6 = (m ((c : Thread nD τ).loc main_arg6)) := (host1_arg6 (W2 m ρ c)).trans (W2_arg6 m ρ c)
theorem V3_arg8 (c : Dev nD) : V3 m ρ c main_arg8 = (m ((c : Thread nD τ).loc main_arg8)) := (host1_arg8 (W2 m ρ c)).trans (W2_arg8 m ρ c)

theorem bias1 (c : Dev nD) (q : Fin 64) : V3 m ρ c main_v48 (ix2 (0 : Fin 1) q) = (m ((c : Thread nD τ).loc main_arg7)) (ix1 q) := by
  rw [V3_v48]
  exact shapeCast_a_1a_apply _ _ _ q

/-- After region 1 the result buffer holds the program's result. -/
theorem W4_v49 (c : Dev nD) : W4 m ρ c (Proc.devRef .tc main_v49) = out m c := by
  refine (W4_arr m ρ c 5).trans ?_
  rw [Region1.arr1 (V3 m ρ) c (m ((c : Thread nD τ).loc main_arg7)) (bias1 m ρ c), V3_v47, V3_v24, V3_arg6, V3_arg8]
  rfl

end Cert.KernelIdeal.KValue

end
-- ==== Proof.LibTypedRefs.lean ====
/-
  Typed references: moving contents to a buffer's own type and back changes nothing.

  An operation of a called function is stated at the type of the tensor value it handles and moved to the type of the
  buffer that holds it along the equation between the two (`TRef.toBuf`, `TRef.ofBuf`). Where one operation writes a
  buffer and a later one reads it, the value makes the round trip buffer-type-and-back. The round trip is the
  identity for ANY typed reference, by the equation alone; cancelling it by this lemma keeps a closing comparison of
  a chain of such operations with its plain composed term from having to look through the transports at large operands.
-/
import Idealize.ShloMosaic.Lib.StableHlo

noncomputable section

namespace Idealize.ShloMosaic.StableHlo.TRef

/-- Contents moved to a buffer's own type and back are the contents. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- The other way round. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Idealize.ShloMosaic.StableHlo.TRef

end
-- ==== Proof.RefRun.lean ====
/-
  The reference program's run, read stage by stage.

  The reference is a straight line of host operations. Every weakly fair execution of it terminates with each buffer
  at the fold of the operations' results over the launch contents. That fold is read here in two stretches: up to the
  buffer that holds the second layer's values before the softmax, where it is the chain of stages unfolded (each stage
  one operation applied to earlier stages; nothing is evaluated); and over the last fifteen operations, jax's
  log_softmax of that one buffer (`lsm`), which write neither it nor an argument. The nine argument buffers are
  written by no operation at all.
-/
import proofs.«122850_j60086592471214_1_alg».proof.Proof.RefOps
import proofs.«122850_j60086592471214_1_alg».proof.Proof.RefRead
import proofs.«122850_j60086592471214_1_alg».proof.Proof.LibTypedRefs
import Idealize.ShloMosaic.Lib.Pipeline.Frame

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The last fifteen operations of @main: log_softmax of the buffer `main_v58`, row by row. -/
abbrev tailOps : List (HloOp τ sig (Elt F)) :=
  [ TRef.nullary (TRef.of (T := ⟨S_, .f32⟩) main_call1_cst) (constant S_ .f32 0xFF800000#32),
    TRef.binary (TRef.of (T := ⟨S100000x64, .f32⟩) main_v58) (TRef.of (T := ⟨S_, .f32⟩) main_call1_cst) (TRef.of (T := ⟨S100000, .f32⟩) main_call1_v0) (fun x v => Host.reduce FloatOps.maximumf x v reducesTo_S100000x64_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v58) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v59) subf ]

/-- @main's operations are the first seventy-three followed by those fifteen. -/
theorem ops_split : (ops (F := F)) = List.take 73 (ops (F := F)) ++ tailOps (F := F) := rfl

/-- log_softmax as jax spells it, of a table `z`: subtract max (−∞, the row maximum), exponentiate, sum each row from
    zero, and subtract the logarithm of the sum from the shifted table. -/
def lsm (z : (⟨S100000x64, .f32⟩ : BufTy).Contents (Elt F)) : (⟨S100000x64, .f32⟩ : BufTy).Contents (Elt F) :=
  subf
    (subf z (broadcastInDim S100000x64 ![0, 1] bcast_S100000x1_S100000x64_0_1 (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x64_S100000_d1 h_S_)))))
    (broadcastInDim S100000x64 ![0, 1] bcast_S100000x1_S100000x64_0_1 (Host.log (broadcastInDim S100000x1 ![0] bcast_S100000_S100000x1_0
      (Host.reduceAdd (Host.exp
        (subf z (broadcastInDim S100000x64 ![0, 1] bcast_S100000x1_S100000x64_0_1 (broadcastInDim S100000x1 ![0] bcast_S100000_S100000x1_0
          (maximumf (broadcastInDim S100000 ![] bcast_S_S100000 (constant S_ .f32 0xFF800000#32))
            (Host.reduce FloatOps.maximumf z (constant S_ .f32 0xFF800000#32) reducesTo_S100000x64_S100000_d1 h_S_))))))
        (constant S_ .f32 0x00000000#32) reducesTo_S100000x64_S100000_d1 h_S_))))

section Reads

variable (W : Valuation τ sig (Elt F))

set_option maxRecDepth 8192 in
set_option maxHeartbeats 35200000 in
/-- The buffer before the softmax, after all the operations from any contents `W`: its stage of the arguments in `W`. -/
theorem after_v58 : StableHlo.after (ops (F := F)) W (Proc.devRef .tc main_v58)
    = val_main_v58 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  after_results_simp <;> rfl

set_option maxHeartbeats 4000000 in
/-- The last fifteen operations leave in the result buffer the log_softmax of what they find in `main_v58` (the
    contents read and written at the buffers' own types). -/
theorem tail_v59 : StableHlo.after (tailOps (F := F)) W (Proc.devRef .tc main_v59)
    = (TRef.of (T := ⟨S100000x64, .f32⟩) main_v59).toBuf
        (lsm ((TRef.of (T := ⟨S100000x64, .f32⟩) main_v58).ofBuf (W (Proc.devRef .tc main_v58)))) := by
  after_results_simp <;> (try simp only [TRef.ofBuf_toBuf]) <;> (try unfold lsm) <;> rfl

/-- At these two buffers the own type IS the table's type: the transports are the identity. -/
theorem toBuf59 (v : (⟨S100000x64, .f32⟩ : BufTy).Contents (Elt F)) :
    (TRef.of (T := ⟨S100000x64, .f32⟩) main_v59).toBuf v = v := rfl
theorem ofBuf58 (v : (⟨S100000x64, .f32⟩ : BufTy).Contents (Elt F)) :
    (TRef.of (T := ⟨S100000x64, .f32⟩) main_v58).ofBuf v = v := rfl

set_option maxHeartbeats 4000000 in
/-- They do not write `main_v58`. -/
theorem tail_v58 : StableHlo.after (tailOps (F := F)) W (Proc.devRef .tc main_v58) = W (Proc.devRef .tc main_v58) := by
  after_results_simp <;> rfl

/-- The result buffer after all the operations: the last stage of the arguments in `W`. -/
theorem after_v59 : StableHlo.after (ops (F := F)) W (Proc.devRef .tc main_v59)
    = val_main_v59 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  have h : StableHlo.after (ops (F := F)) W (Proc.devRef .tc main_v58)
      = StableHlo.after (List.take 73 (ops (F := F))) W (Proc.devRef .tc main_v58) := by
    conv_lhs => rw [ops_split (F := F)]
    rw [StableHlo.after_append, tail_v58]
  have h58 : StableHlo.after (List.take 73 (ops (F := F))) W (Proc.devRef .tc main_v58)
      = val_main_v58 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := h.symm.trans (after_v58 W)
  conv_lhs => rw [ops_split (F := F)]
  rw [StableHlo.after_append, tail_v59, toBuf59, ofBuf58, h58]
  rfl

set_option maxRecDepth 8192 in
set_option maxHeartbeats 35200000 in
theorem after_arg0 : StableHlo.after (ops (F := F)) W (Proc.devRef .tc main_arg0) = W (Proc.devRef .tc main_arg0) := by
  after_results_simp <;> rfl

set_option maxRecDepth 8192 in
set_option maxHeartbeats 35200000 in
theorem after_arg1 : StableHlo.after (ops (F := F)) W (Proc.devRef .tc main_arg1) = W (Proc.devRef .tc main_arg1) := by
  after_results_simp <;> rfl

set_option maxRecDepth 8192 in
set_option maxHeartbeats 35200000 in
theorem after_arg2 : StableHlo.after (ops (F := F)) W (Proc.devRef .tc main_arg2) = W (Proc.devRef .tc main_arg2) := by
  after_results_simp <;> rfl

set_option maxRecDepth 8192 in
set_option maxHeartbeats 35200000 in
theorem after_arg3 : StableHlo.after (ops (F := F)) W (Proc.devRef .tc main_arg3) = W (Proc.devRef .tc main_arg3) := by
  after_results_simp <;> rfl

set_option maxRecDepth 8192 in
set_option maxHeartbeats 35200000 in
theorem after_arg4 : StableHlo.after (ops (F := F)) W (Proc.devRef .tc main_arg4) = W (Proc.devRef .tc main_arg4) := by
  after_results_simp <;> rfl

set_option maxRecDepth 8192 in
set_option maxHeartbeats 35200000 in
theorem after_arg5 : StableHlo.after (ops (F := F)) W (Proc.devRef .tc main_arg5) = W (Proc.devRef .tc main_arg5) := by
  after_results_simp <;> rfl

set_option maxRecDepth 8192 in
set_option maxHeartbeats 35200000 in
theorem after_arg6 : StableHlo.after (ops (F := F)) W (Proc.devRef .tc main_arg6) = W (Proc.devRef .tc main_arg6) := by
  after_results_simp <;> rfl

set_option maxRecDepth 8192 in
set_option maxHeartbeats 35200000 in
theorem after_arg7 : StableHlo.after (ops (F := F)) W (Proc.devRef .tc main_arg7) = W (Proc.devRef .tc main_arg7) := by
  after_results_simp <;> rfl

set_option maxRecDepth 8192 in
set_option maxHeartbeats 35200000 in
theorem after_arg8 : StableHlo.after (ops (F := F)) W (Proc.devRef .tc main_arg8) = W (Proc.devRef .tc main_arg8) := by
  after_results_simp <;> rfl

end Reads

/-- On every device, from any memory with zero counters: every weakly fair execution of the reference terminates with
    the result at the last stage of the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v59).trans (after_v59 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _)⟩)
    (run_seq scopedRefs_eq scopedSems_eq defs main (fun _ => ops) main_eq (fun _ => ops_sub) m ρ)

end Cert.ReferenceIdeal.RefRun

end
-- ==== Proof.RefValue.lean ====
/-
  The reference program's stages as the layers' tables.

  The reference forms the mean aggregation of the node features (a gather, two scatter-adds and a quotient; kept here
  as the one opaque function of the features and the edge list that the generated stage `val_main_v22` is), then
  relu (agg · W_l1 + b_l1 + x · W_r1): the first layer's table; aggregates that table over the second edge list by the
  SAME operations; and takes log_softmax (agg₂ · W_l2 + b_l2 + h · W_r2) row by row: the second layer's table. A host
  `dot_general` at the ideal values is the plain sum over the contracted axis, a bias broadcast [e] → [1, e] → [n, e]
  reads the vector at the column, relu is the maximum with a broadcast zero, and the log_softmax subtracts
  max (−∞, row maximum) = the row maximum, sums the exponentials from 0 and subtracts the logarithm of the sum.
-/
import proofs.«122850_j60086592471214_1_alg».proof.Proof.RefRead
import proofs.«122850_j60086592471214_1_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Read Idealize.ShloMosaic Idealize.ShloMosaic.ValueIdx
open scoped BigOperators

variable (x0 : (⟨S100000x128, .f32⟩ : BufTy).Contents (Elt Ideal)) (x1 x2 : (⟨S2x1000000, .i32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal))
  (x6 : (⟨S128x64, .f32⟩ : BufTy).Contents (Elt Ideal)) (x7 : (⟨S64, .f32⟩ : BufTy).Contents (Elt Ideal)) (x8 : (⟨S128x64, .f32⟩ : BufTy).Contents (Elt Ideal))

/-- relu (agg · W_l1 + b_l1 + x · W_r1) is the first layer's table of the aggregated and the node features. -/
theorem hidden_eq :
    val_main_v29 (F := Ideal) x0 x1 x3 x4 x5 = Cert.Sage.hidden (val_main_v22 (F := Ideal) x0 x1) x0 x3 x5 x4 := by
  funext i
  obtain ⟨r, c, rfl⟩ : ∃ (r : Fin 100000) (c : Fin 128), i = ix2 r c := ⟨i 0, i 1, eq_ix2 i⟩
  rw [Cert.Sage.hidden_apply]
  unfold Cert.Sage.lin
  have el23 : ∀ k : Fin 128, lidx_main_v23 (ix2 r c) k = ix2 r k := fun k =>
    funext fun a => Fin.ext (by match a with | ⟨0, _⟩ => rfl | ⟨1, _⟩ => rfl)
  have er23 : ∀ k : Fin 128, ridx_main_v23 (ix2 r c) k = ix2 k c := fun k =>
    funext fun a => Fin.ext (by match a with | ⟨0, _⟩ => rfl | ⟨1, _⟩ => rfl)
  have el27 : ∀ k : Fin 128, lidx_main_v27 (ix2 r c) k = ix2 r k := fun k =>
    funext fun a => Fin.ext (by match a with | ⟨0, _⟩ => rfl | ⟨1, _⟩ => rfl)
  have er27 : ∀ k : Fin 128, ridx_main_v27 (ix2 r c) k = ix2 k c := fun k =>
    funext fun a => Fin.ext (by match a with | ⟨0, _⟩ => rfl | ⟨1, _⟩ => rfl)
  have eb : idx_main_v24 (idx_main_v25 (ix2 r c)) = ix1 c :=
    funext fun a => Fin.ext (by match a with | ⟨0, _⟩ => rfl)
  rw [val_main_v29_apply, val_main_v28_apply, val_main_v26_apply, val_main_v23_apply, val_main_v25_apply,
    val_main_v24_apply, val_main_v27_apply, val_main_call0_v0_apply, val_main_call0_cst_apply]
  simp only [el23, er23, el27, er27, eb, Ideal.maximumf_def, Ideal.addf_def, Ideal.ofBits_def, Ideal.ofBits_zero_f32]

/-- The second aggregation is the first one's operations, applied to the first layer's table and the second edge list. -/
theorem agg2_eq :
    val_main_v52 (F := Ideal) x0 x1 x2 x3 x4 x5 = val_main_v22 (F := Ideal) (val_main_v29 (F := Ideal) x0 x1 x3 x4 x5) x2 := by
  generalize hh : val_main_v29 (F := Ideal) x0 x1 x3 x4 x5 = h
  unfold val_main_v52 val_main_v22 val_main_v43 val_main_v13 val_main_v51 val_main_v21 val_main_v50 val_main_v20
    val_main_v49 val_main_v19 val_main_v47 val_main_v17 val_main_v48 val_main_v18 val_main_v46 val_main_v16
    val_main_v45 val_main_v15 val_main_v44 val_main_v14 val_main_v42 val_main_v12 val_main_v41 val_main_v11
    val_main_v40 val_main_v10 val_main_v39 val_main_v9 val_main_v38 val_main_v8 val_main_v37 val_main_v7
    val_main_v36 val_main_v6 val_main_v35 val_main_v5 val_main_v34 val_main_v4 val_main_v33 val_main_v3
    val_main_v32 val_main_v2 val_main_v31 val_main_v1 val_main_v30 val_main_v0
    val_main_cst_9 val_main_cst_3 val_main_cst_8 val_main_cst_2 val_main_cst_7 val_main_cst_1 val_main_cst_6 val_main_cst
    val_main_c_5 val_main_c_0 val_main_c_4 val_main_c
  rw [hh]

/-- The pattern 0xFF800000 is −∞. -/
theorem ofBits_negInf : Ideal.ofBits .f32 0xFF800000#32 = ⊥ := by simp [Ideal.ofBits, Ideal.ieee]

/-- The table the softmax is taken of, entry (r, k): agg₂ · W_l2 + b_l2 + h · W_r2 there. -/
theorem z_apply (r : Fin 100000) (k : Fin 64) :
    val_main_v58 (F := Ideal) x0 x1 x2 x3 x4 x5 x6 x7 x8 (ix2 r k)
      = Cert.Sage.lin (val_main_v52 (F := Ideal) x0 x1 x2 x3 x4 x5) (val_main_v29 (F := Ideal) x0 x1 x3 x4 x5) x6 x8 x7 r k := by
  unfold Cert.Sage.lin
  have el53 : ∀ q : Fin 128, lidx_main_v53 (ix2 r k) q = ix2 r q := fun q =>
    funext fun a => Fin.ext (by match a with | ⟨0, _⟩ => rfl | ⟨1, _⟩ => rfl)
  have er53 : ∀ q : Fin 128, ridx_main_v53 (ix2 r k) q = ix2 q k := fun q =>
    funext fun a => Fin.ext (by match a with | ⟨0, _⟩ => rfl | ⟨1, _⟩ => rfl)
  have el57 : ∀ q : Fin 128, lidx_main_v57 (ix2 r k) q = ix2 r q := fun q =>
    funext fun a => Fin.ext (by match a with | ⟨0, _⟩ => rfl | ⟨1, _⟩ => rfl)
  have er57 : ∀ q : Fin 128, ridx_main_v57 (ix2 r k) q = ix2 q k := fun q =>
    funext fun a => Fin.ext (by match a with | ⟨0, _⟩ => rfl | ⟨1, _⟩ => rfl)
  have eb : idx_main_v54 (idx_main_v55 (ix2 r k)) = ix1 k :=
    funext fun a => Fin.ext (by match a with | ⟨0, _⟩ => rfl)
  rw [val_main_v58_apply, val_main_v56_apply, val_main_v53_apply, val_main_v55_apply, val_main_v54_apply,
    val_main_v57_apply]
  simp only [el53, er53, el57, er57, eb, Ideal.addf_def]

/-- A reduce of the maximum over the columns of a table with 64 columns, read at row r: the fold of max, from the
    initial value, of the row's 64 entries. -/
theorem hostRowMax_apply (f : (⟨S100000x64, .f32⟩ : BufTy).Contents (Elt Ideal)) (init : (⟨S_, .f32⟩ : BufTy).Contents (Elt Ideal))
    (r : Fin 100000) :
    Host.reduce (FloatOps.maximumf (F := Ideal) (φ := .f32)) f init Gen.reducesTo_S100000x64_S100000_d1 Gen.h_S_ (ix1 r)
      = (Finset.univ : Finset (Fin 64)).fold max (init (Shape.Idx.first Gen.h_S_)) (fun k => f (ix2 r k)) := by
  have hred : S100000x64.Reduces [1] S100000 := by decide
  have hf : (f ∘ hred.lift (ix1 r)) = fun k : Fin 64 => f (ix2 r k) :=
    funext fun k => congrArg f (funext fun a => Fin.ext (by match a with | ⟨0, _⟩ => rfl | ⟨1, _⟩ => rfl))
  rw [Host.reduce_eq_fold_single FloatOps.maximumf _ _ Gen.reducesTo_S100000x64_S100000_d1 hred Gen.h_S_ (ix1 r), hf]
  rfl

/-- max (−∞, the reduce of the maximum over a row from −∞) is the row's maximum. -/
theorem rowMax_apply (r : Fin 100000) :
    val_main_call1_v2 (F := Ideal) x0 x1 x2 x3 x4 x5 x6 x7 x8 (ix1 r)
      = Cert.Sage.rowMax (Cert.Sage.lin (val_main_v52 (F := Ideal) x0 x1 x2 x3 x4 x5)
          (val_main_v29 (F := Ideal) x0 x1 x3 x4 x5) x6 x8 x7) r := by
  rw [val_main_call1_v2_apply, val_main_call1_v1_apply, val_main_call1_cst_0_apply]
  unfold val_main_call1_v0 Cert.Sage.rowMax
  rw [hostRowMax_apply, val_main_call1_cst_apply]
  simp only [z_apply, Ideal.maximumf_def, Ideal.ofBits_def, ofBits_negInf]
  exact max_eq_right bot_le

/-- The table with every row shifted by its maximum, entry (r, k). -/
theorem shift_apply (r : Fin 100000) (k : Fin 64) :
    val_main_call1_v5 (F := Ideal) x0 x1 x2 x3 x4 x5 x6 x7 x8 (ix2 r k)
      = Cert.Sage.lin (val_main_v52 (F := Ideal) x0 x1 x2 x3 x4 x5) (val_main_v29 (F := Ideal) x0 x1 x3 x4 x5) x6 x8 x7 r k
        - Cert.Sage.rowMax (Cert.Sage.lin (val_main_v52 (F := Ideal) x0 x1 x2 x3 x4 x5)
            (val_main_v29 (F := Ideal) x0 x1 x3 x4 x5) x6 x8 x7) r := by
  have e : idx_main_call1_v3 (idx_main_call1_v4 (ix2 r k)) = ix1 r :=
    funext fun a => Fin.ext (by match a with | ⟨0, _⟩ => rfl)
  rw [val_main_call1_v5_apply, val_main_call1_v4_apply, val_main_call1_v3_apply, e, rowMax_apply, z_apply]
  simp only [Ideal.subf_def]

/-- The exponential of the shifted table, entry (r, k). -/
theorem expShift_apply (r : Fin 100000) (k : Fin 64) :
    val_main_call1_v6 (F := Ideal) x0 x1 x2 x3 x4 x5 x6 x7 x8 (ix2 r k)
      = Ideal.exp (Cert.Sage.lin (val_main_v52 (F := Ideal) x0 x1 x2 x3 x4 x5) (val_main_v29 (F := Ideal) x0 x1 x3 x4 x5) x6 x8 x7 r k
        - Cert.Sage.rowMax (Cert.Sage.lin (val_main_v52 (F := Ideal) x0 x1 x2 x3 x4 x5)
            (val_main_v29 (F := Ideal) x0 x1 x3 x4 x5) x6 x8 x7) r) := by
  rw [val_main_call1_v6_apply, shift_apply, Ideal.hostUnary_exp_def]

/-- log_softmax (agg₂ · W_l2 + b_l2 + h · W_r2) is the second layer's table of the second aggregation and the first
    layer's table. -/
theorem out_eq :
    val_main_v59 (F := Ideal) x0 x1 x2 x3 x4 x5 x6 x7 x8
      = Cert.Sage.logits (val_main_v52 (F := Ideal) x0 x1 x2 x3 x4 x5) (val_main_v29 (F := Ideal) x0 x1 x3 x4 x5) x6 x8 x7 := by
  funext i
  obtain ⟨r, c, rfl⟩ : ∃ (r : Fin 100000) (c : Fin 64), i = ix2 r c := ⟨i 0, i 1, eq_ix2 i⟩
  rw [Cert.Sage.logits_apply]
  unfold Cert.Sage.logSoftmax
  have e : idx_main_call1_v8 (idx_main_call1_v10 (ix2 r c)) = ix1 r :=
    funext fun a => Fin.ext (by match a with | ⟨0, _⟩ => rfl)
  have es : ∀ k : Fin 64, idx_main_call1_v7 (ix1 r) k = ix2 r k := fun k =>
    funext fun a => Fin.ext (by match a with | ⟨0, _⟩ => rfl | ⟨1, _⟩ => rfl)
  rw [val_main_v59_apply, shift_apply, val_main_call1_v10_apply, val_main_call1_v9_apply, val_main_call1_v8_apply, e,
    val_main_call1_v7_apply, val_main_call1_cst_1_apply]
  have hs : (∑ k : Fin 64, val_main_call1_v6 (F := Ideal) x0 x1 x2 x3 x4 x5 x6 x7 x8 (idx_main_call1_v7 (ix1 r) k))
      = ∑ k : Fin 64, Ideal.exp (Cert.Sage.lin (val_main_v52 (F := Ideal) x0 x1 x2 x3 x4 x5)
          (val_main_v29 (F := Ideal) x0 x1 x3 x4 x5) x6 x8 x7 r k
        - Cert.Sage.rowMax (Cert.Sage.lin (val_main_v52 (F := Ideal) x0 x1 x2 x3 x4 x5)
            (val_main_v29 (F := Ideal) x0 x1 x3 x4 x5) x6 x8 x7) r) :=
    Finset.sum_congr rfl fun k _ => by rw [es k, expShift_apply]
  rw [hs, Ideal.subf_def, Ideal.hostUnary_log_def, Ideal.ofBits_def, Ideal.ofBits_zero_f32, zero_add]

end Cert.ReferenceIdeal.RefValue

end
-- ==== Proof.lean ====
/-
  A two-layer graph network with mean aggregation: the kernel program against its jnp reference, over the extended reals.

  Both programs compute, from node features x, two edge lists and two layers' weights and biases,
      h   = max (agg (x, e₁) · W_l1 + b_l1 + x · W_r1, 0)
      out = log_softmax (agg (h, e₂) · W_l2 + b_l2 + h · W_r2)      (row by row),
  where agg is the mean over in-edges. The two programs spell agg with the same host operations, so it stays one opaque
  function throughout. The kernel program forms each layer's dense part in a pallas_call over blocks of 4000 rows (its
  matrix operands rounded to a narrower format first, which changes nothing on the extended reals; a matrix product into a
  zero accumulator is the plain sum over the contracted axis); the reference forms it on whole tables. Since an entry
  of either layer's table depends on its own row of the inputs only, the blocks of the kernel's tables are the blocks
  of the reference's. No law beyond "a sum is a sum" is needed, so the finiteness precondition is never opened.

  The three frames: the two kernel programs' are the generated frame certificates; the reference's is its run with the
  result dropped. The idealization rewrote nothing, so `preserves` is trivial.
-/
import proofs.«122850_j60086592471214_1_alg».proof.Defs
import proofs.«122850_j60086592471214_1_alg».proof.Proof.Gen.Kernel
import proofs.«122850_j60086592471214_1_alg».proof.Proof.Gen.Kernel.Skeleton
import proofs.«122850_j60086592471214_1_alg».proof.Proof.Gen.Kernel.Launch
import proofs.«122850_j60086592471214_1_alg».proof.Proof.Gen.Kernel.Points
import proofs.«122850_j60086592471214_1_alg».proof.Proof.Gen.Kernel.Frame
import proofs.«122850_j60086592471214_1_alg».proof.Proof.Gen.KernelIdeal
import proofs.«122850_j60086592471214_1_alg».proof.Proof.Gen.KernelIdeal.Skeleton
import proofs.«122850_j60086592471214_1_alg».proof.Proof.Gen.KernelIdeal.Launch
import proofs.«122850_j60086592471214_1_alg».proof.Proof.Gen.KernelIdeal.Points
import proofs.«122850_j60086592471214_1_alg».proof.Proof.Gen.KernelIdeal.Frame
import proofs.«122850_j60086592471214_1_alg».proof.Proof.Gen.ReferenceIdeal
import proofs.«122850_j60086592471214_1_alg».proof.Proof.Gen.Pre_finite_inputs
import proofs.«122850_j60086592471214_1_alg».proof.Proof.KRun
import proofs.«122850_j60086592471214_1_alg».proof.Proof.KValue
import proofs.«122850_j60086592471214_1_alg».proof.Proof.RefRun
import proofs.«122850_j60086592471214_1_alg».proof.Proof.RefValue
import Idealize.ShloMosaic.Adequacy
import Idealize.ShloMosaic.Init

noncomputable section

namespace Cert.Proof

open Idealize.ShloMosaic Idealize.SL.Sem

/-- The reference's mean aggregation is the kernel program's: the same operations on the same operands. Stated at an
    abstract float family, where nothing can be evaluated. -/
theorem agg_eq {F : FTy → Type} [FloatOps F]
    (x : (⟨Cert.ReferenceIdeal.S100000x128, .f32⟩ : BufTy).Contents (Elt F))
    (e : (⟨Cert.ReferenceIdeal.S2x1000000, .i32⟩ : BufTy).Contents (Elt F)) :
    Cert.ReferenceIdeal.Read.val_main_v22 (F := F) x e = Cert.KernelIdeal.Agg.agg (F := F) x e := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments both programs end with the second layer's table of the aggregated first
    layer's table: the kernel program by its two calls' blocks, the reference by its stages. -/
theorem algebraic : Cert.algebraic_KernelIdeal_ReferenceIdeal := by
  intro m ρ m' ρ' _ hagree
  refine ⟨fun c => Cert.KernelIdeal.KValue.out m c, ?_, ?_⟩
  · exact (θ_run Cert.KernelIdeal.defs _ _).mono
      (fun r h c => ⟨(h c).1.trans (Cert.KernelIdeal.KValue.W4_v49 m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8⟩ := hagree c
    rw [h0, h1, h2, h3, h4, h5, h6, h7, h8, Cert.ReferenceIdeal.RefValue.out_eq, Cert.ReferenceIdeal.RefValue.agg2_eq,
      Cert.ReferenceIdeal.RefValue.hidden_eq, agg_eq, agg_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
